-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x1 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 76
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x1, .f32⟩
  | .hbm, ⟨67, _⟩ => ⟨S1700000x1, .f32⟩
  | .hbm, ⟨68, _⟩ => ⟨S1700000x1, .f32⟩
  | .hbm, ⟨69, _⟩ => ⟨S_, .f32⟩
  | .hbm, ⟨70, _⟩ => ⟨S100000x1, .f32⟩
  | .hbm, ⟨71, _⟩ => ⟨S1700000x1, .i32⟩
  | .hbm, ⟨72, _⟩ => ⟨S100000x1, .f32⟩
  | .hbm, ⟨73, _⟩ => ⟨S1x1, .f32⟩
  | .hbm, ⟨74, _⟩ => ⟨S100000x1, .f32⟩
  | .hbm, ⟨75, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x1, .f32⟩
  | .local _ .vmem, ⟨13, _⟩ => ⟨S5000x1, .f32⟩
  | .local _ .vmem, ⟨14, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x1, .f32⟩
  | .hbm, ⟨72, _⟩ => ⟨S1700000x1, .f32⟩
  | .hbm, ⟨73, _⟩ => ⟨S1700000x1, .f32⟩
  | .hbm, ⟨74, _⟩ => ⟨S_, .f32⟩
  | .hbm, ⟨75, _⟩ => ⟨S100000x1, .f32⟩
  | .hbm, ⟨76, _⟩ => ⟨S1700000x1, .i32⟩
  | .hbm, ⟨77, _⟩ => ⟨S100000x1, .f32⟩
  | .hbm, ⟨78, _⟩ => ⟨S1x1, .f32⟩
  | .hbm, ⟨79, _⟩ => ⟨S100000x1, .f32⟩
  | .hbm, ⟨80, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  The two whole-array functions the kernel's regions compute, index by index over the extended reals.

  A graph-convolution layer is  relu (A · (X · W) + b)  with A the normalised adjacency; the kernel takes the dense
  product  X · W  and the bias-and-relu step into tiled regions and leaves the sparse part (gather along edges, scale,
  scatter-add) to the host.  So two functions suffice: the rows-by-columns product, and "add a row vector, clamp at zero".
-/
import Idealize.ShloMosaic.PureOps.Ideal
import Idealize.ShloMosaic.Lib.ValueIdx

noncomputable section

namespace Cert.Spec

open Idealize.ShloMosaic Idealize.ShloMosaic.ValueIdx

/-- The matrix product: entry (p, q) is the sum over k of l (p, k) · r (k, q). -/
def mm {M K N : Nat} (l : FVec Ideal ⟨2, ![M, K]⟩ .f32) (r : FVec Ideal ⟨2, ![K, N]⟩ .f32) : FVec Ideal ⟨2, ![M, N]⟩ .f32 :=
  fun i => ∑ k : Fin K, l (ix2 (i 0) k) * r (ix2 k (i 1))

theorem mm_apply {M K N : Nat} (l : FVec Ideal ⟨2, ![M, K]⟩ .f32) (r : FVec Ideal ⟨2, ![K, N]⟩ .f32) (p : Fin M) (q : Fin N) :
    mm l r (ix2 p q) = ∑ k : Fin K, l (ix2 p k) * r (ix2 k q) := rfl

/-- Add the row vector b to every row of x and clamp at the zero word: entry (p, q) is max (x (p, q) + b q) 0. -/
def biasRelu {M N : Nat} (x : FVec Ideal ⟨2, ![M, N]⟩ .f32) (b : FVec Ideal ⟨1, ![N]⟩ .f32) : FVec Ideal ⟨2, ![M, N]⟩ .f32 :=
  fun i => max (x i + b (ix1 (i 1))) (Ideal.ofBits .f32 0x00000000#32)

theorem biasRelu_apply {M N : Nat} (x : FVec Ideal ⟨2, ![M, N]⟩ .f32) (b : FVec Ideal ⟨1, ![N]⟩ .f32) (p : Fin M) (q : Fin N) :
    biasRelu x b (ix2 p q) = max (x (ix2 p q) + b (ix1 q)) (Ideal.ofBits .f32 0x00000000#32) := rfl

end Cert.Spec

end
-- ==== Proof.Glue.lean ====
/-
  The sparse half of a graph-convolution layer, as the host computes it, and the two-layer network over it.

  Edges are the columns of the 2 × E index array followed by one self loop per node.  A node's degree is the number of
  edges that end in it; an edge's weight is deg(src)^(-1/2) · deg(dst)^(-1/2).  Aggregation gathers the source row of
  every edge, scales it by the edge's weight and scatter-adds it into the destination row.  With the dense steps
  (Cert.Spec) the network is
      out = A · ( relu (A · (X · W1) + b1) · W2 ) + b2,       A = the weighted adjacency with self loops.
-/
import proofs.«115105_j69947837383221_1_alg».proof.Proof.Gen.KernelIdeal
import proofs.«115105_j69947837383221_1_alg».proof.Proof.Spec

noncomputable section

namespace Cert.KernelIdeal.Glue

open Idealize.ShloMosaic Cert.KernelIdeal Cert.KernelIdeal.Facts₀ Cert.Spec

/-- The edges' source nodes: the first row of the index array, then the self loops 0 … N−1. -/
def srcIdx (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' destination nodes: the second row of the index array, then the self loops. -/
def dstIdx (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index vector as a column. -/
def col (v : IVec S1700000 32) : IVec S1700000x1 32 := broadcastInDim S1700000x1 ![0] bcast_S1700000_S1700000x1_0 v

/-- An index vector with negative entries wrapped once (i < 0 ↦ i + N), as a column: how a row lookup reads its index. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- deg^(-1/2) per node: ones scatter-added along the destinations, then the reciprocal square root. -/
def invSqrtDeg (ei : IVec S2x1600000 32) : FVec Ideal S100000 .f32 :=
  Host.rsqrt (Host.scatterAdd scatter_S100000_S1700000x1_S1700000_n_0_0_1
    (broadcastInDim S100000 ![] bcast_S_S100000 (constant S_ .f32 0x00000000#32)) (col (dstIdx ei))
    (broadcastInDim S1700000 ![] bcast_S_S1700000 (constant S_ .f32 0x3F800000#32)))

/-- The weight of every edge: deg(src)^(-1/2) · deg(dst)^(-1/2). -/
def edgeWeight (ei : IVec S2x1600000 32) : FVec Ideal S1700000 .f32 :=
  mulf (Host.gather gather_S100000_S1700000x1_S1700000_n_0_n_n_0_1_1 (invSqrtDeg ei) (wrapCol (srcIdx ei)))
    (Host.gather gather_S100000_S1700000x1_S1700000_n_0_n_n_0_1_1 (invSqrtDeg ei) (wrapCol (dstIdx ei)))

/-- Aggregation of 128 features per node: gather the sources' rows, scale by the edge weights, scatter-add into the
    destinations' rows. -/
def aggregate128 (h : FVec Ideal S100000x128 .f32) (ei : IVec S2x1600000 32) : FVec Ideal S100000x128 .f32 :=
  Host.scatterAdd scatter_S100000x128_S1700000x1_S1700000x128_1_0_0_1
    (broadcastInDim S100000x128 ![] bcast_S_S100000x128 (constant S_ .f32 0x00000000#32)) (col (dstIdx ei))
    (mulf (Host.gather gather_S100000x128_S1700000x1_S1700000x128_1_0_n_n_0_1_1128 h (wrapCol (srcIdx ei)))
      (broadcastInDim S1700000x128 ![0, 1] bcast_S1700000x1_S1700000x128_0_1
        (broadcastInDim S1700000x1 ![0] bcast_S1700000_S1700000x1_0 (edgeWeight ei))))

/-- Aggregation of one feature per node. -/
def aggregate1 (h : FVec Ideal S100000x1 .f32) (ei : IVec S2x1600000 32) : FVec Ideal S100000x1 .f32 :=
  Host.scatterAdd scatter_S100000x1_S1700000x1_S1700000x1_1_0_0_1
    (broadcastInDim S100000x1 ![] bcast_S_S100000x1 (constant S_ .f32 0x00000000#32)) (col (dstIdx ei))
    (mulf (Host.gather gather_S100000x1_S1700000x1_S1700000x1_1_0_n_n_0_1_11 h (wrapCol (srcIdx ei)))
      (broadcastInDim S1700000x1 ![0] bcast_S1700000_S1700000x1_0 (edgeWeight ei)))

/-- The output bias added to every node. -/
def plusBias (x : FVec Ideal S100000x1 .f32) (b2 : FVec Ideal S1 .f32) : FVec Ideal S100000x1 .f32 :=
  addf x (broadcastInDim S100000x1 ![0, 1] bcast_S1x1_S100000x1_0_1 (broadcastInDim S1x1 ![1] bcast_S1_S1x1_1 b2))

/-- The two-layer network. -/
def network (X : FVec Ideal S100000x64 .f32) (ei : IVec S2x1600000 32) (W1 : FVec Ideal S64x128 .f32) (b1 : FVec Ideal S128 .f32)
    (W2 : FVec Ideal S128x1 .f32) (b2 : FVec Ideal S1 .f32) : FVec Ideal S100000x1 .f32 :=
  plusBias (aggregate1 (mm (biasRelu (aggregate128 (mm X W1) ei) b1) W2) ei) b2

end Cert.KernelIdeal.Glue

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Region0.lean ====
/-
  The first tiled region: the dense product X · W1, five thousand rows of X at a grid point.

  Point t loads rows 5000·t … 5000·t + 4999 of X and the whole of W1, multiplies them into a zero accumulator and writes
  the 5000 × 128 result back as block t of the output.  A row of a product depends only on that row of the left
  operand, so block t of the output is block t of the whole product; the twenty blocks tile the 100000 rows, hence the
  output array ends holding the whole product.
-/
import proofs.«115105_j69947837383221_1_alg».proof.Proof.Gen.KernelIdeal.Frame
import proofs.«115105_j69947837383221_1_alg».proof.Proof.LibMatmul
import proofs.«115105_j69947837383221_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

/-- The left operand X and the right operand W1 as the region finds them. -/
abbrev lhs (c : Dev nD) : FVec Ideal S100000x64 .f32 := V c main_arg0
abbrev rhs (c : Dev nD) : FVec Ideal S64x128 .f32 := V c main_arg2

theorem origin2 : (![0, 0] : Fin 2 → Nat) = fun _ => 0 := funext fun a => by fin_cases a <;> rfl

/-- The body's value at (p, q): the sum over k of the loaded X rows at (p, k) times W1 at (k, q); the two narrowings to
    bf16 are the identity on extended reals. -/
theorem body_at (x0 : Vec Ideal S5000x64 .f32) (x1 : Vec Ideal S64x128 .f32) (j : S5000x128.Idx) :
    k0_pay1 x0 x1 j = ∑ k : Fin 64, x0 (ix2 (j 0) k) * x1 (ix2 k (j 1)) := by
  obtain ⟨p, q, rfl⟩ : ∃ (p : Fin 5000) (q : Fin 128), j = ix2 p q := ⟨j 0, j 1, eq_ix2 j⟩
  unfold k0_pay1
  exact Cert.Matmul.matmul_plain_apply none _ _ p q

/-- Where the windows sit at point t: X's window and the output's at block row t, block column 0; W1's at the origin. -/
theorem where_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem written_back (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x128) origin2]
  obtain ⟨e0, e1, e2, e3, e4, e5⟩ := where_blocks t
  funext j
  refine (body_at (iblk0 V c 0 t) (iblk0 V c 1 t) j).trans ?_
  show ∑ k : Fin 64, lhs V c (((cfg0.win 0).blk t).view.emb (ix2 (j 0) k)) * rhs V c (((cfg0.win 1).blk t).view.emb (ix2 k (j 1)))
     = ∑ k : Fin 64, lhs V c (ix2 ((((cfg0.win 2).blk t).view.emb j) 0) k) * rhs V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  rw [h0, h1]
  rfl

/-- An index of the output array is in point t's block iff each coordinate is in the block's range on its axis. -/
theorem in_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row r lies in the block of point r / 5000: the twenty blocks tile the array. -/
theorem tiled (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e0, e1, e2, e3, e4, e5⟩ := where_blocks t
  have ht : t.val = (i 0).val / 5000 := rfl
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the whole product X · W1 of the arrays the region finds. -/
theorem product (c : Dev nD) : (dat0 V c).arrAt 2 cfg0.N = mm (V c main_arg0) (V c main_arg2) :=
  (dat0 V c).arrAt_eq_of_cover 2 (mm (V c main_arg0) (V c main_arg2)) (fun t _ => written_back V c t) tiled

end Cert.KernelIdeal.Region0

end
-- ==== Proof.Region1.lean ====
/-
  The second tiled region: add the bias row to every row and clamp at zero, five thousand rows at a grid point.

  Point t loads rows 5000·t … 5000·t + 4999 of the aggregated features and the whole bias vector, and writes
  max (x + b, 0) back as block t of the output.  The step is pointwise in the row, so block t of the output is block t
  of the whole-array function; the twenty blocks tile the 100000 rows.
-/
import proofs.«115105_j69947837383221_1_alg».proof.Proof.Gen.KernelIdeal.Frame
import proofs.«115105_j69947837383221_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

/-- The aggregated features and the bias vector as the region finds them. -/
abbrev feats (c : Dev nD) : FVec Ideal S100000x128 .f32 := V c main_v40
abbrev bias (c : Dev nD) : FVec Ideal S128 .f32 := V c main_arg3

theorem origin2 : (![0, 0] : Fin 2 → Nat) = fun _ => 0 := funext fun a => by fin_cases a <;> rfl
theorem origin1 : (![0] : Fin 1 → Nat) = fun _ => 0 := funext fun a => by fin_cases a; rfl

/-- The body's value at (p, q): the loaded feature at (p, q) plus the bias at q, clamped at the zero word.  The bias
    vector is viewed as one row and that row repeated down the block. -/
theorem body_at (x0 : Vec Ideal S5000x128 .f32) (x1 : Vec Ideal S128 .f32) (j : S5000x128.Idx) :
    k1_pay1 x0 x1 j = max (x0 j + x1 (ix1 (j 1))) (Ideal.ofBits .f32 0x00000000#32) := by
  obtain ⟨p, q, rfl⟩ : ∃ (p : Fin 5000) (q : Fin 128), j = ix2 p q := ⟨j 0, j 1, eq_ix2 j⟩
  unfold k1_pay1
  rw [shapeCast_self]
  show max (x0 (ix2 p q) + broadcastTo S5000x128 (shapeCast S1x128 x1 shapeCasts_S128_S1x128) broadcasts_S1x128_S5000x128 (ix2 p q)) _ = _
  rw [broadcastTo_1b_ab_apply, shapeCast_a_1a_apply]
  rfl

/-- Where the windows sit at point t: the features' window and the output's at block row t, block column 0; the bias
    vector's at the origin. -/
theorem where_blocks : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the whole-array bias-and-clamp of the arrays the region finds. -/
theorem written_back (c : Dev nD) (t : Fin cfg1.N) :
    (dat1 V c).flushed 2 t = ((cfg1.win 2).blk t).view.read (Elt Ideal) (biasRelu (V c main_v40) (V c main_arg3)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128) origin1]
  obtain ⟨e0, e1, e2, e3, e4⟩ := where_blocks t
  funext j
  refine (body_at (iblk1 V c 0 t) (iblk1 V c 1 t) j).trans ?_
  show max (feats V c (((cfg1.win 0).blk t).view.emb j) + bias V c (((cfg1.win 1).blk t).view.emb (ix1 (j 1)))) (Ideal.ofBits .f32 0x00000000#32)
     = max (feats V c (((cfg1.win 2).blk t).view.emb j) + bias V c (ix1 ((((cfg1.win 2).blk t).view.emb j) 1))) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix1 (j 1)) = ix1 ((((cfg1.win 2).blk t).view.emb j) 1) := by
    funext a; apply Fin.ext
    match a with
    | ⟨0, _⟩ => show win1_1.index t (0 : Fin 1) * 128 + 1 * (j 1).val = win1_2.index t (1 : Fin 2) * 128 + 1 * (j 1).val; omega
  rw [h0, h1]
  rfl

/-- An index of the output array is in point t's block iff each coordinate is in the block's range on its axis. -/
theorem in_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v41).slice (win1_2.rect t)).set ↔ _
  rw [View.set_slice_whole, Rect.mem_set_unit]
  exact Iff.rfl

/-- Row r lies in the block of point r / 5000: the twenty blocks tile the array. -/
theorem tiled (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨e0, e1, e2, e3, e4⟩ := where_blocks t
  have ht : t.val = (i 0).val / 5000 := rfl
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the bias added and the clamp applied to the whole array the region finds. -/
theorem clamped (c : Dev nD) : (dat1 V c).arrAt 2 cfg1.N = biasRelu (V c main_v40) (V c main_arg3) :=
  (dat1 V c).arrAt_eq_of_cover 2 (biasRelu (V c main_v40) (V c main_arg3)) (fun t _ => written_back V c t) tiled

end Cert.KernelIdeal.Region1

end
-- ==== Proof.Region2.lean ====
/-
  The third tiled region: the dense product h · W2, five thousand rows of h at a grid point, one output column.

  Point t loads rows 5000·t … 5000·t + 4999 of h and the whole of W2 and writes their 5000 × 1 product back as block t
  of the output.  As for the first product, a row of the result depends only on that row of h, the blocks tile the
  100000 rows, and so the output array ends holding the whole product.
-/
import proofs.«115105_j69947837383221_1_alg».proof.Proof.Gen.KernelIdeal.Frame
import proofs.«115105_j69947837383221_1_alg».proof.Proof.LibMatmul
import proofs.«115105_j69947837383221_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

/-- The left operand h and the right operand W2 as the region finds them. -/
abbrev lhs (c : Dev nD) : FVec Ideal S100000x128 .f32 := V c main_v41
abbrev rhs (c : Dev nD) : FVec Ideal S128x1 .f32 := V c main_arg4

theorem origin2 : (![0, 0] : Fin 2 → Nat) = fun _ => 0 := funext fun a => by fin_cases a <;> rfl

/-- The body's value at (p, q): the sum over k of the loaded rows of h at (p, k) times W2 at (k, q); the cast to the
    same shape and the two narrowings to bf16 are the identity on extended reals. -/
theorem body_at (x0 : Vec Ideal S5000x128 .f32) (x1 : Vec Ideal S128x1 .f32) (j : S5000x1.Idx) :
    k2_pay1 x0 x1 j = ∑ k : Fin 128, x0 (ix2 (j 0) k) * x1 (ix2 k (j 1)) := by
  obtain ⟨p, q, rfl⟩ : ∃ (p : Fin 5000) (q : Fin 1), j = ix2 p q := ⟨j 0, j 1, eq_ix2 j⟩
  unfold k2_pay1
  rw [shapeCast_self]
  exact Cert.Matmul.matmul_plain_apply none _ _ p q

/-- Where the windows sit at point t: h's window and the output's at block row t, block column 0; W2's at the origin. -/
theorem where_blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem written_back (c : Dev nD) (t : Fin cfg2.N) :
    (dat2 V c).flushed 2 t = ((cfg2.win 2).blk t).view.read (Elt Ideal) (mm (V c main_v41) (V c main_arg4)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x1) origin2]
  obtain ⟨e0, e1, e2, e3, e4, e5⟩ := where_blocks t
  funext j
  refine (body_at (iblk2 V c 0 t) (iblk2 V c 1 t) j).trans ?_
  show ∑ k : Fin 128, lhs V c (((cfg2.win 0).blk t).view.emb (ix2 (j 0) k)) * rhs V c (((cfg2.win 1).blk t).view.emb (ix2 k (j 1)))
     = ∑ k : Fin 128, lhs V c (ix2 ((((cfg2.win 2).blk t).view.emb j) 0) k) * rhs V c (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 1 + 1 * (j 1).val = win2_2.index t (1 : Fin 2) * 1 + 1 * (j 1).val; omega
  rw [h0, h1]
  rfl

/-- An index of the output array is in point t's block iff each coordinate is in the block's range on its axis. -/
theorem in_block (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v42).slice (win2_2.rect t)).set ↔ _
  rw [View.set_slice_whole, Rect.mem_set_unit]
  exact Iff.rfl

/-- Row r lies in the block of point r / 5000: the twenty blocks tile the array. -/
theorem tiled (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  let t : Fin cfg2.N := ⟨(i 0).val / 5000, by show (i 0).val / 5000 < 20; omega⟩
  obtain ⟨e0, e1, e2, e3, e4, e5⟩ := where_blocks t
  have ht : t.val = (i 0).val / 5000 := rfl
  refine ⟨t, flush2_2 t, ?_⟩
  rw [in_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- THE OUTPUT ARRAY after the region: the whole product h · W2 of the arrays the region finds. -/
theorem product (c : Dev nD) : (dat2 V c).arrAt 2 cfg2.N = mm (V c main_v41) (V c main_arg4) :=
  (dat2 V c).arrAt_eq_of_cover 2 (mm (V c main_v41) (V c main_arg4)) (fun t _ => written_back V c t) tiled

end Cert.KernelIdeal.Region2

end
-- ==== Proof.Boundaries.lean ====
/-
  What the buffers hold at each boundary of the kernel's @main, from the launch to the return.

  @main is: a host stretch (edge endpoints and edge weights from the index array), the first product, a host stretch
  (aggregation of 128 features), the bias-and-clamp step, the second product, a host stretch (aggregation of one feature,
  output bias).  A host stretch rewrites the buffers its operations name and keeps the rest; a tiled region rewrites its
  output array (to what the region modules say) and keeps every other buffer.  Reading the result buffer back through
  the six boundaries gives the two-layer network of the launch contents.
-/
import proofs.«115105_j69947837383221_1_alg».proof.Proof.Gen.KernelIdeal.Frame
import proofs.«115105_j69947837383221_1_alg».proof.Proof.Glue
import proofs.«115105_j69947837383221_1_alg».proof.Proof.Region0
import proofs.«115105_j69947837383221_1_alg».proof.Proof.Region1
import proofs.«115105_j69947837383221_1_alg».proof.Proof.Region2
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.KernelIdeal.Glue Cert.Spec

variable (m : (ℓ : Loc nD τ sig) → Buf (Elt Ideal) ℓ) (ρ : Dev nD → PrngReg)

/-! ## The launch contents of the six arguments -/

abbrev X (c : Dev nD) : FVec Ideal S100000x64 .f32 := m ((c : Thread nD τ).loc main_arg0)
abbrev E (c : Dev nD) : IVec S2x1600000 32 := m ((c : Thread nD τ).loc main_arg1)
abbrev W1 (c : Dev nD) : FVec Ideal S64x128 .f32 := m ((c : Thread nD τ).loc main_arg2)
abbrev b1 (c : Dev nD) : FVec Ideal S128 .f32 := m ((c : Thread nD τ).loc main_arg3)
abbrev W2 (c : Dev nD) : FVec Ideal S128x1 .f32 := m ((c : Thread nD τ).loc main_arg4)
abbrev b2 (c : Dev nD) : FVec Ideal S1 .f32 := m ((c : Thread nD τ).loc main_arg5)

/-! ## After the first host stretch: the edges' endpoints and weights; the arguments untouched -/

theorem at1_src (c : Dev nD) : Gen.W1 m ρ c (Proc.devRef .tc main_v3) = srcIdx (E m c) := by
  show StableHlo.after hostOps0 (W0 m ρ c) (Proc.devRef .tc main_v3) = _
  after_results_simp <;> rfl
theorem at1_dst (c : Dev nD) : Gen.W1 m ρ c (Proc.devRef .tc main_v6) = dstIdx (E m c) := by
  show StableHlo.after hostOps0 (W0 m ρ c) (Proc.devRef .tc main_v6) = _
  after_results_simp <;> rfl
theorem at1_weight (c : Dev nD) : Gen.W1 m ρ c (Proc.devRef .tc main_v26) = edgeWeight (E m c) := by
  show StableHlo.after hostOps0 (W0 m ρ c) (Proc.devRef .tc main_v26) = _
  after_results_simp <;> rfl
theorem at1_X (c : Dev nD) : Gen.W1 m ρ c (Proc.devRef .tc main_arg0) = X m c := by
  show StableHlo.after hostOps0 (W0 m ρ c) (Proc.devRef .tc main_arg0) = _
  after_results_simp <;> rfl
theorem at1_W1 (c : Dev nD) : Gen.W1 m ρ c (Proc.devRef .tc main_arg2) = W1 m c := by
  show StableHlo.after hostOps0 (W0 m ρ c) (Proc.devRef .tc main_arg2) = _
  after_results_simp <;> rfl
theorem at1_b1 (c : Dev nD) : Gen.W1 m ρ c (Proc.devRef .tc main_arg3) = b1 m c := by
  show StableHlo.after hostOps0 (W0 m ρ c) (Proc.devRef .tc main_arg3) = _
  after_results_simp <;> rfl
theorem at1_W2 (c : Dev nD) : Gen.W1 m ρ c (Proc.devRef .tc main_arg4) = W2 m c := by
  show StableHlo.after hostOps0 (W0 m ρ c) (Proc.devRef .tc main_arg4) = _
  after_results_simp <;> rfl
theorem at1_b2 (c : Dev nD) : Gen.W1 m ρ c (Proc.devRef .tc main_arg5) = b2 m c := by
  show StableHlo.after hostOps0 (W0 m ρ c) (Proc.devRef .tc main_arg5) = _
  after_results_simp <;> rfl

/-! ## After the first region: the output array holds X · W1; nothing else moved -/

theorem at2_XW1 (c : Dev nD) : Gen.W2 m ρ c (Proc.devRef .tc main_v27) = mm (X m c) (W1 m c) :=
  (W2_arr m ρ c 2).trans ((Region0.product (V1 m ρ) c).trans (congrArg₂ mm (at1_X m ρ c) (at1_W1 m ρ c)))
theorem at2_src (c : Dev nD) : Gen.W2 m ρ c (Proc.devRef .tc main_v3) = srcIdx (E m c) :=
  (W2_of_ne m ρ c main_v3 (by decide)).trans (at1_src m ρ c)
theorem at2_dst (c : Dev nD) : Gen.W2 m ρ c (Proc.devRef .tc main_v6) = dstIdx (E m c) :=
  (W2_of_ne m ρ c main_v6 (by decide)).trans (at1_dst m ρ c)
theorem at2_weight (c : Dev nD) : Gen.W2 m ρ c (Proc.devRef .tc main_v26) = edgeWeight (E m c) :=
  (W2_of_ne m ρ c main_v26 (by decide)).trans (at1_weight m ρ c)
theorem at2_b1 (c : Dev nD) : Gen.W2 m ρ c (Proc.devRef .tc main_arg3) = b1 m c :=
  (W2_of_ne m ρ c main_arg3 (by decide)).trans (at1_b1 m ρ c)
theorem at2_W2 (c : Dev nD) : Gen.W2 m ρ c (Proc.devRef .tc main_arg4) = W2 m c :=
  (W2_of_ne m ρ c main_arg4 (by decide)).trans (at1_W2 m ρ c)
theorem at2_b2 (c : Dev nD) : Gen.W2 m ρ c (Proc.devRef .tc main_arg5) = b2 m c :=
  (W2_of_ne m ρ c main_arg5 (by decide)).trans (at1_b2 m ρ c)

/-! ## After the second host stretch: the 128 features aggregated along the edges -/

theorem at3_agg (c : Dev nD) : W3 m ρ c (Proc.devRef .tc main_v40) = aggregate128 (mm (X m c) (W1 m c)) (E m c) := by
  show StableHlo.after hostOps1 (Gen.W2 m ρ c) (Proc.devRef .tc main_v40) = _
  after_results_simp
  rw [at2_XW1, at2_src, at2_dst, at2_weight]
  rfl
theorem at3_src (c : Dev nD) : W3 m ρ c (Proc.devRef .tc main_v3) = srcIdx (E m c) := by
  show StableHlo.after hostOps1 (Gen.W2 m ρ c) (Proc.devRef .tc main_v3) = _
  after_results_simp
  exact at2_src m ρ c
theorem at3_dst (c : Dev nD) : W3 m ρ c (Proc.devRef .tc main_v6) = dstIdx (E m c) := by
  show StableHlo.after hostOps1 (Gen.W2 m ρ c) (Proc.devRef .tc main_v6) = _
  after_results_simp
  exact at2_dst m ρ c
theorem at3_weight (c : Dev nD) : W3 m ρ c (Proc.devRef .tc main_v26) = edgeWeight (E m c) := by
  show StableHlo.after hostOps1 (Gen.W2 m ρ c) (Proc.devRef .tc main_v26) = _
  after_results_simp
  exact at2_weight m ρ c
theorem at3_b1 (c : Dev nD) : W3 m ρ c (Proc.devRef .tc main_arg3) = b1 m c := by
  show StableHlo.after hostOps1 (Gen.W2 m ρ c) (Proc.devRef .tc main_arg3) = _
  after_results_simp
  exact at2_b1 m ρ c
theorem at3_W2 (c : Dev nD) : W3 m ρ c (Proc.devRef .tc main_arg4) = W2 m c := by
  show StableHlo.after hostOps1 (Gen.W2 m ρ c) (Proc.devRef .tc main_arg4) = _
  after_results_simp
  exact at2_W2 m ρ c
theorem at3_b2 (c : Dev nD) : W3 m ρ c (Proc.devRef .tc main_arg5) = b2 m c := by
  show StableHlo.after hostOps1 (Gen.W2 m ρ c) (Proc.devRef .tc main_arg5) = _
  after_results_simp
  exact at2_b2 m ρ c

/-! ## After the second region: the bias added and the clamp applied -/

theorem at4_hidden (c : Dev nD) :
    W4 m ρ c (Proc.devRef .tc main_v41) = biasRelu (aggregate128 (mm (X m c) (W1 m c)) (E m c)) (b1 m c) :=
  (W4_arr m ρ c 2).trans ((Region1.clamped (V3 m ρ) c).trans (congrArg₂ biasRelu (at3_agg m ρ c) (at3_b1 m ρ c)))
theorem at4_src (c : Dev nD) : W4 m ρ c (Proc.devRef .tc main_v3) = srcIdx (E m c) :=
  (W4_of_ne m ρ c main_v3 (by decide)).trans (at3_src m ρ c)
theorem at4_dst (c : Dev nD) : W4 m ρ c (Proc.devRef .tc main_v6) = dstIdx (E m c) :=
  (W4_of_ne m ρ c main_v6 (by decide)).trans (at3_dst m ρ c)
theorem at4_weight (c : Dev nD) : W4 m ρ c (Proc.devRef .tc main_v26) = edgeWeight (E m c) :=
  (W4_of_ne m ρ c main_v26 (by decide)).trans (at3_weight m ρ c)
theorem at4_W2 (c : Dev nD) : W4 m ρ c (Proc.devRef .tc main_arg4) = W2 m c :=
  (W4_of_ne m ρ c main_arg4 (by decide)).trans (at3_W2 m ρ c)
theorem at4_b2 (c : Dev nD) : W4 m ρ c (Proc.devRef .tc main_arg5) = b2 m c :=
  (W4_of_ne m ρ c main_arg5 (by decide)).trans (at3_b2 m ρ c)

/-! ## After the third region: the hidden layer times W2 -/

theorem at5_hW2 (c : Dev nD) :
    W5 m ρ c (Proc.devRef .tc main_v42) = mm (biasRelu (aggregate128 (mm (X m c) (W1 m c)) (E m c)) (b1 m c)) (W2 m c) :=
  (W5_arr m ρ c 2).trans ((Region2.product (V4 m ρ) c).trans (congrArg₂ mm (at4_hidden m ρ c) (at4_W2 m ρ c)))
theorem at5_src (c : Dev nD) : W5 m ρ c (Proc.devRef .tc main_v3) = srcIdx (E m c) :=
  (W5_of_ne m ρ c main_v3 (by decide)).trans (at4_src m ρ c)
theorem at5_dst (c : Dev nD) : W5 m ρ c (Proc.devRef .tc main_v6) = dstIdx (E m c) :=
  (W5_of_ne m ρ c main_v6 (by decide)).trans (at4_dst m ρ c)
theorem at5_weight (c : Dev nD) : W5 m ρ c (Proc.devRef .tc main_v26) = edgeWeight (E m c) :=
  (W5_of_ne m ρ c main_v26 (by decide)).trans (at4_weight m ρ c)
theorem at5_b2 (c : Dev nD) : W5 m ρ c (Proc.devRef .tc main_arg5) = b2 m c :=
  (W5_of_ne m ρ c main_arg5 (by decide)).trans (at4_b2 m ρ c)

/-! ## After the last host stretch: the result -/

/-- THE RESULT BUFFER at the return holds the two-layer network of the launch contents. -/
theorem at6_out (c : Dev nD) :
    W6 m ρ c (Proc.devRef .tc main_v57) = network (X m c) (E m c) (W1 m c) (b1 m c) (W2 m c) (b2 m c) := by
  show StableHlo.after hostOps3 (W5 m ρ c) (Proc.devRef .tc main_v57) = _
  after_results_simp
  rw [at5_hW2, at5_src, at5_dst, at5_weight, at5_b2]
  rfl

end Cert.KernelIdeal.Boundaries

end
-- ==== Proof.RefNetwork.lean ====
/-
  The reference computes the same two-layer network.

  The reference's result is one composed term of host operations.  Its sparse half (endpoints, degrees, edge weights,
  gather, scale, scatter-add, output bias) is operation for operation the kernel's; its dense steps are two
  dot_generals and an add-broadcast-maximum.  Read at an index, a dot_general over the plain dimension numbers is the
  rows-by-columns sum, and  max (x + broadcast b, broadcast 0)  is the bias-and-clamp function: with these three
  identities the reference's term is the network of Cert.KernelIdeal.Glue.
-/
import proofs.«115105_j69947837383221_1_alg».proof.Proof.Gen.ReferenceIdeal.Run
import proofs.«115105_j69947837383221_1_alg».proof.Proof.Glue
import proofs.«115105_j69947837383221_1_alg».proof.Proof.LibMatmul
import Idealize.ShloMosaic.Lib.Pipeline.Value
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Facts₀ Cert.Spec

/-- The first dot_general is the product X · W1. -/
theorem dot_XW1 (X : FVec Ideal S100000x64 .f32) (W : FVec Ideal S64x128 .f32) :
    Host.dotGeneral dot_S100000x64_S64x128_S100000x128_1_0_0_1_n_n none X W = mm X W := by
  funext i
  obtain ⟨p, q, rfl⟩ : ∃ (p : Fin 100000) (q : Fin 128), i = ix2 p q := ⟨i 0, i 1, eq_ix2 i⟩
  exact Cert.Matmul.dotGeneral_plain_apply none _ X W p q

/-- The second dot_general is the product h · W2. -/
theorem dot_hW2 (h : FVec Ideal S100000x128 .f32) (W : FVec Ideal S128x1 .f32) :
    Host.dotGeneral dot_S100000x128_S128x1_S100000x1_1_0_0_1_n_n none h W = mm h W := by
  funext i
  obtain ⟨p, q, rfl⟩ : ∃ (p : Fin 100000) (q : Fin 1), i = ix2 p q := ⟨i 0, i 1, eq_ix2 i⟩
  exact Cert.Matmul.dotGeneral_plain_apply none _ h W p q

/-- The bias as a row, the row repeated down the array, added, and the maximum with the broadcast zero: entry (p, q) is
    max (x (p, q) + b q) 0. -/
theorem add_bias_relu (x : FVec Ideal S100000x128 .f32) (b : FVec Ideal S128 .f32) :
    maximumf (addf x (broadcastInDim S100000x128 ![0, 1] bcast_S1x128_S100000x128_0_1 (broadcastInDim S1x128 ![1] bcast_S128_S1x128_1 b)))
      (broadcastInDim S100000x128 ![] bcast_S_S100000x128 (constant S_ .f32 0x00000000#32)) = biasRelu x b := by
  funext i
  obtain ⟨p, q, rfl⟩ : ∃ (p : Fin 100000) (q : Fin 128), i = ix2 p q := ⟨i 0, i 1, eq_ix2 i⟩
  have hrow : broadcastInDim S100000x128 ![0, 1] bcast_S1x128_S100000x128_0_1 (broadcastInDim S1x128 ![1] bcast_S128_S1x128_1 b) (ix2 p q) = b (ix1 q) := by
    rw [broadcastInDim_apply ![0, 1] bcast_S1x128_S100000x128_0_1 _ (ix2 p q) (ix2 (0 : Fin 1) q) (fun a => by match a with | ⟨0, _⟩ => rfl | ⟨1, _⟩ => rfl),
      broadcastInDim_apply ![1] bcast_S128_S1x128_1 b (ix2 (0 : Fin 1) q) (ix1 q) (fun a => by match a with | ⟨0, _⟩ => rfl)]
  show max (x (ix2 p q) + broadcastInDim S100000x128 ![0, 1] bcast_S1x128_S100000x128_0_1 (broadcastInDim S1x128 ![1] bcast_S128_S1x128_1 b) (ix2 p q))
      (broadcastInDim S100000x128 ![] bcast_S_S100000x128 (constant (F := Ideal) S_ .f32 0x00000000#32) (ix2 p q)) = _
  rw [hrow, broadcastInDim_apply ![] bcast_S_S100000x128 _ (ix2 p q) ix0 (fun a => a.elim0)]
  rfl

/-- THE REFERENCE'S RESULT is the two-layer network of its arguments. -/
theorem result_is_network (m : (ℓ : Loc nD τ sig) → Buf (Elt Ideal) ℓ) (c : Dev nD) :
    Cert.ReferenceIdeal.Value.res_main_v60 (F := Ideal) m c
      = Cert.KernelIdeal.Glue.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v60
  rw [dot_XW1, add_bias_relu, dot_hW2]
  rfl

end Cert.ReferenceIdeal.RefValue

end
-- ==== Proof.lean ====
/-
  A two-layer graph convolution, tiled kernel against plain reference, over the extended reals.

  Both programs compute   out = A · ( relu (A · (X · W1) + b1) · W2 ) + b2,   where A is the adjacency with self loops,
  weighted by deg(src)^(-1/2) · deg(dst)^(-1/2).  The sparse products with A (gather along the edges, scale, scatter-add)
  are host operations in both programs, the same ones in the same order.  The kernel takes the three dense steps into
  tiled regions of 5000 rows a grid point: X · W1, the bias-and-clamp, and h · W2.  Each of these acts row by row, so a
  block of the output is the same block of the whole-array function, and the twenty blocks tile the 100000 rows:
  every region leaves exactly what the reference's dot_general, respectively add-and-maximum, computes.  The narrowings
  to bf16 in front of the kernel's products are the identity on extended reals, and a product into a zero accumulator
  is the plain sum over the contracted axis, as the host's dot_general is.  No law beyond that is used, so the
  finiteness of the inputs is never opened.

  Kernel side: the run with the result buffer at the last boundary's contents (KernelRun), those contents read back
  through the six boundaries of @main (Boundaries, over Region0 / Region1 / Region2 and the host terms of Glue).
  Reference side: its run's composed term is the same network (RefNetwork).
-/
import proofs.«115105_j69947837383221_1_alg».proof.Defs
import proofs.«115105_j69947837383221_1_alg».proof.Proof.Gen.Kernel
import proofs.«115105_j69947837383221_1_alg».proof.Proof.Gen.Kernel.Frame
import proofs.«115105_j69947837383221_1_alg».proof.Proof.Gen.KernelIdeal
import proofs.«115105_j69947837383221_1_alg».proof.Proof.Gen.KernelIdeal.Frame
import proofs.«115105_j69947837383221_1_alg».proof.Proof.Gen.ReferenceIdeal
import proofs.«115105_j69947837383221_1_alg».proof.Proof.Gen.Pre_finite_inputs
import proofs.«115105_j69947837383221_1_alg».proof.Proof.Gen.ReferenceIdeal.Run
import proofs.«115105_j69947837383221_1_alg».proof.Proof.KernelRun
import proofs.«115105_j69947837383221_1_alg».proof.Proof.Boundaries
import proofs.«115105_j69947837383221_1_alg».proof.Proof.RefNetwork
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the two-layer network of the (agreeing) arguments in their result buffers. -/
theorem algebraic : Cert.algebraic_KernelIdeal_ReferenceIdeal := by
  intro m ρ m' ρ' _ hagree
  refine ⟨fun c => Cert.KernelIdeal.Glue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.at6_out m ρ c), (h c).2⟩)
      (Cert.KernelIdeal.ValueRun.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_is_network, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
